-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S512x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x512 .f32) (main_arg1 : FVec F S50000x512 .f32) (main_arg2 : IVec S2x800000 32) (main_arg3 : FVec F S512x128 .f32) (main_arg4 : FVec F S128 .f32) (main_arg5 : FVec F S128x128 .f32) (main_arg6 : FVec F S128 .f32) (main_arg7 : FVec F S512x128 .f32) (main_arg8 : FVec F S128 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S1x128 : Shape := ⟨2, ![1, 128]⟩
abbrev S50000x128 : Shape := ⟨2, ![50000, 128]⟩
abbrev S1000x512 : Shape := ⟨2, ![1000, 512]⟩
abbrev S1000x128 : Shape := ⟨2, ![1000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 80
  | .vmem => 26
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S50000, .i32⟩
  | .hbm, ⟨23, _⟩ => ⟨S1x800000, .i32⟩
  | .hbm, ⟨24, _⟩ => ⟨S800000, .i32⟩
  | .hbm, ⟨25, _⟩ => ⟨S850000, .i32⟩
  | .hbm, ⟨26, _⟩ => ⟨S1x800000, .i32⟩
  | .hbm, ⟨27, _⟩ => ⟨S800000, .i32⟩
  | .hbm, ⟨28, _⟩ => ⟨S850000, .i32⟩
  | .hbm, ⟨29, _⟩ => ⟨S_, .f32⟩
  | .hbm, ⟨30, _⟩ => ⟨S850000, .f32⟩
  | .hbm, ⟨31, _⟩ => ⟨S_, .f32⟩
  | .hbm, ⟨32, _⟩ => ⟨S50000, .f32⟩
  | .hbm, ⟨33, _⟩ => ⟨S850000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S850000x1, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .f32⟩
  | .hbm, ⟨68, _⟩ => ⟨S850000x128, .f32⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S128x128, .f32⟩
  | .hbm, ⟨79, _⟩ => ⟨S50000x128, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  inb_S1000x128_S1000x128_0_0 : ∀ a, (![0, 0] : Fin 2 → Nat) a + S1000x128.size a ≤ S1000x128.size a
  h_S1000x128 : 0 < S1000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S1000x128_S1000x128 : S1000x128.ShapeCasts S1000x128
  shapeCasts_S128x128_S128x128 : S128x128.ShapeCasts S128x128
  dot_S1000x512_S512x128_S1000x128_1_0_0_1_n_n_wf : DotDims.WF S1000x512 S512x128 S1000x128 [1] [0] [0] [1] [] []
  dot_S1000x128_S128x128_S1000x128_1_0_0_1_n_n_wf : DotDims.WF S1000x128 S128x128 S1000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S50000x128.size a
  hwx0_7 : ∀ i : grid0.Coords, EltTy.bits .f32 = 32 ∨ (Rect.block (s := S50000x128) S1000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S50000x128.size a
  hwx0_8 : ∀ i : grid0.Coords, EltTy.bits .f32 = 32 ∨ (Rect.block (s := S50000x128) S1000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S50000x256 : Shape := ⟨2, ![50000, 256]⟩

abbrev nBuf : Space → Nat
  | .hbm => 98
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000, .i32⟩
  | .hbm, ⟨30, _⟩ => ⟨S1x800000, .i32⟩
  | .hbm, ⟨31, _⟩ => ⟨S800000, .i32⟩
  | .hbm, ⟨32, _⟩ => ⟨S850000, .i32⟩
  | .hbm, ⟨33, _⟩ => ⟨S1x800000, .i32⟩
  | .hbm, ⟨34, _⟩ => ⟨S800000, .i32⟩
  | .hbm, ⟨35, _⟩ => ⟨S850000, .i32⟩
  | .hbm, ⟨36, _⟩ => ⟨S_, .f32⟩
  | .hbm, ⟨37, _⟩ => ⟨S850000, .f32⟩
  | .hbm, ⟨38, _⟩ => ⟨S_, .f32⟩
  | .hbm, ⟨39, _⟩ => ⟨S50000, .f32⟩
  | .hbm, ⟨40, _⟩ => ⟨S850000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000, .f32⟩
  | .hbm, ⟨65, _⟩ => ⟨S850000, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x256, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_3 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  concatenates_S50000x128_S50000x128_S50000x256_d1 : Shape.Concatenates [S50000x128, S50000x128] S50000x256 1
  dot_S50000x512_S512x128_S50000x128_1_0_0_1_n_n_wf : DotDims.WF S50000x512 S512x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«129887_j63290638074042_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«129887_j63290638074042_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.Spec.lean ====
/-
  The network both programs compute, as plain functions of matrices of extended reals.

  Two branches feed a three-layer projector. The perceptron branch is two dense layers, each clamped at zero from
  below: `hidden x W₁ b₁ W₂ b₂ = relu (relu (x·W₁ + b₁)·W₂ + b₂)`. The graph branch starts from the features
  `feat x Wg = x·Wg`; what the graph does to them (a normalised sum over the edges, plus a bias) is the same chain of
  operations in both programs and is carried as one function, never opened. The projector's first layer acts on the two
  branches set side by side, `[h₁ | h₂]·Wp₁ + bp₁`; a program may instead multiply each branch by its own half of
  `Wp₁` and add the two products: `mix`. The two agree because a sum over 256 columns is the sum over the first 128
  plus the sum over the last 128 (`prodRow_joined`), which holds on the extended reals as on any commutative monoid:
  no entry has to be finite.

  Every function is stated entry by entry and depends on its row-indexed arguments only through the entry's row
  (`hidden_congr`, `feat_congr`, `project_congr`), so it reads the same on a block of rows and on the whole matrix.
-/
import Idealize.ShloMosaic.Lib.Pipeline.Value
import Idealize.ShloMosaic.Lib.ValueIdx
import Idealize.ShloMosaic.Lib.ValueLayout
import Idealize.ShloMosaic.PureOps.Ideal.Laws
import proofs.«129887_j63290638074042_1_alg».proof.Proof.LibBiasLayer

noncomputable section

namespace Cert.Net

open Idealize.ShloMosaic Idealize.ShloMosaic.ValueIdx Cert.DenseLayer Cert.BiasLayer

variable {a : ℕ}

/-! ## A bias held as a one-row matrix -/

/-- The vector a `[1, N]` matrix holds in its one row. -/
def rowOf {N : ℕ} (b : Mat 1 N) : Row N := fun j => b (ix2 (0 : Fin 1) (j 0))

theorem rowOf_apply {N : ℕ} (b : Mat 1 N) (q : Fin N) : rowOf b (ix1 q) = b (ix2 (0 : Fin 1) q) := rfl

/-! ## The two branches -/

/-- The perceptron branch: two dense layers with bias, each clamped at zero from below. -/
def hidden (x : Mat a 512) (W1 : Mat 512 128) (b1 : Row 128) (W2 : Mat 128 128) (b2 : Row 128) : Mat a 128 :=
  reluAffine (reluAffine x W1 b1) W2 b2

/-- Row `r` of the perceptron branch depends on `x` only through its row `r`. -/
theorem hidden_congr {a' : ℕ} (x : Mat a 512) (x' : Mat a' 512) (W1 : Mat 512 128) (b1 : Row 128) (W2 : Mat 128 128)
    (b2 : Row 128) (r : Fin a) (r' : Fin a') (h : ∀ k, x (ix2 r k) = x' (ix2 r' k)) (q : Fin 128) :
    hidden x W1 b1 W2 b2 (ix2 r q) = hidden x' W1 b1 W2 b2 (ix2 r' q) :=
  reluAffine_congr _ _ W2 b2 r r' (fun k => reluAffine_congr x x' W1 b1 r r' h k) q

/-- The graph branch's features: the plain product `x · Wg`. -/
def feat (x : Mat a 512) (Wg : Mat 512 128) : Mat a 128 := fun i => prodRow x Wg (i 0) (i 1)

theorem feat_apply (x : Mat a 512) (Wg : Mat 512 128) (r : Fin a) (q : Fin 128) :
    feat x Wg (ix2 r q) = prodRow x Wg r q := rfl

theorem feat_congr {a' : ℕ} (x : Mat a 512) (x' : Mat a' 512) (Wg : Mat 512 128) (r : Fin a) (r' : Fin a')
    (h : ∀ k, x (ix2 r k) = x' (ix2 r' k)) (q : Fin 128) : feat x Wg (ix2 r q) = feat x' Wg (ix2 r' q) := by
  rw [feat_apply, feat_apply, prodRow_congr x x' Wg r r' h]

/-! ## The projector -/

/-- The projector's first layer on the two branches, each multiplied by its own `[128, 128]` matrix:
    `h₁·Wa + h₂·Wb + b`. -/
def mix (h1 h2 : Mat a 128) (Wa Wb : Mat 128 128) (b : Row 128) : Mat a 128 :=
  fun i => prodRow h1 Wa (i 0) (i 1) + prodRow h2 Wb (i 0) (i 1) + b (ix1 (i 1))

theorem mix_apply (h1 h2 : Mat a 128) (Wa Wb : Mat 128 128) (b : Row 128) (r : Fin a) (q : Fin 128) :
    mix h1 h2 Wa Wb b (ix2 r q) = prodRow h1 Wa r q + prodRow h2 Wb r q + b (ix1 q) := rfl

theorem mix_congr {a' : ℕ} (h1 h2 : Mat a 128) (h1' h2' : Mat a' 128) (Wa Wb : Mat 128 128) (b : Row 128)
    (r : Fin a) (r' : Fin a') (e1 : ∀ k, h1 (ix2 r k) = h1' (ix2 r' k)) (e2 : ∀ k, h2 (ix2 r k) = h2' (ix2 r' k))
    (q : Fin 128) : mix h1 h2 Wa Wb b (ix2 r q) = mix h1' h2' Wa Wb b (ix2 r' q) := by
  rw [mix_apply, mix_apply, prodRow_congr h1 h1' Wa r r' e1, prodRow_congr h2 h2' Wb r r' e2]

/-- The whole projector on the two branches: the mixed first layer, then two dense layers with bias. -/
def project (h1 h2 : Mat a 128) (Wa Wb : Mat 128 128) (bp1 : Row 128) (Wp2 : Mat 128 128) (bp2 : Row 128)
    (Wp3 : Mat 128 128) (bp3 : Row 128) : Mat a 128 :=
  affine (affine (mix h1 h2 Wa Wb bp1) Wp2 bp2) Wp3 bp3

/-- Row `r` of the projector's result depends on the two branches only through their rows `r`. -/
theorem project_congr {a' : ℕ} (h1 h2 : Mat a 128) (h1' h2' : Mat a' 128) (Wa Wb : Mat 128 128) (bp1 : Row 128)
    (Wp2 : Mat 128 128) (bp2 : Row 128) (Wp3 : Mat 128 128) (bp3 : Row 128) (r : Fin a) (r' : Fin a')
    (e1 : ∀ k, h1 (ix2 r k) = h1' (ix2 r' k)) (e2 : ∀ k, h2 (ix2 r k) = h2' (ix2 r' k)) (q : Fin 128) :
    project h1 h2 Wa Wb bp1 Wp2 bp2 Wp3 bp3 (ix2 r q) = project h1' h2' Wa Wb bp1 Wp2 bp2 Wp3 bp3 (ix2 r' q) :=
  affine_congr _ _ Wp3 bp3 r r'
    (fun k => affine_congr _ _ Wp2 bp2 r r' (fun k' => mix_congr h1 h2 h1' h2' Wa Wb bp1 r r' e1 e2 k') k) q

/-! ## The two branches side by side -/

/-- Two `[a, 128]` matrices side by side: columns `0 … 127` from the first, `128 … 255` from the second. -/
def joined (h1 h2 : Mat a 128) : Mat a 256 :=
  fun i => Fin.addCases (m := 128) (n := 128) (fun k => h1 (ix2 (i 0) k)) (fun k => h2 (ix2 (i 0) k)) (i 1)

theorem joined_left (h1 h2 : Mat a 128) (r : Fin a) (k : Fin 128) :
    joined h1 h2 (ix2 r (Fin.castAdd 128 k)) = h1 (ix2 r k) :=
  Fin.addCases_left (m := 128) (n := 128) (motive := fun _ => EReal) k

theorem joined_right (h1 h2 : Mat a 128) (r : Fin a) (k : Fin 128) :
    joined h1 h2 (ix2 r (Fin.natAdd 128 k)) = h2 (ix2 r k) :=
  Fin.addCases_right (m := 128) (n := 128) (motive := fun _ => EReal) k

/-- Rows `0 … 127` of a `[256, 128]` matrix. -/
def upper (W : Mat 256 128) : Mat 128 128 := fun i => W (ix2 (Fin.castAdd 128 (i 0)) (i 1))

/-- Rows `128 … 255` of a `[256, 128]` matrix. -/
def lower (W : Mat 256 128) : Mat 128 128 := fun i => W (ix2 (Fin.natAdd 128 (i 0)) (i 1))

theorem upper_apply (W : Mat 256 128) (k q : Fin 128) : upper W (ix2 k q) = W (ix2 (Fin.castAdd 128 k) q) := rfl
theorem lower_apply (W : Mat 256 128) (k q : Fin 128) : lower W (ix2 k q) = W (ix2 (Fin.natAdd 128 k) q) := rfl

/-- A row of the side-by-side matrix times `W` is the first branch's row times the upper half of `W` plus the
    second branch's row times the lower half: the sum over 256 columns split at column 128. -/
theorem prodRow_joined (h1 h2 : Mat a 128) (W : Mat 256 128) (r : Fin a) (q : Fin 128) :
    prodRow (joined h1 h2) W r q = prodRow h1 (upper W) r q + prodRow h2 (lower W) r q := by
  show (∑ k : Fin (128 + 128), joined h1 h2 (ix2 r k) * W (ix2 k q)) = _
  rw [Fin.sum_univ_add]
  unfold prodRow
  refine congrArg₂ (· + ·) (Finset.sum_congr rfl fun k _ => ?_) (Finset.sum_congr rfl fun k _ => ?_)
  · rw [joined_left, upper_apply]
  · rw [joined_right, lower_apply]

/-- So the first projector layer on the side-by-side matrix is the mixed layer on the two halves of its weights. -/
theorem affine_joined (h1 h2 : Mat a 128) (W : Mat 256 128) (b : Row 128) :
    affine (joined h1 h2) W b = mix h1 h2 (upper W) (lower W) b :=
  funext fun i => by
    obtain ⟨r, q, rfl⟩ : ∃ (r : Fin a) (q : Fin 128), i = ix2 r q := ⟨i 0, i 1, eq_ix2 i⟩
    rw [affine_apply, mix_apply, prodRow_joined]

/-- The projector as a program that joins the branches first spells it: three dense layers with bias on the
    side-by-side matrix. -/
theorem project_eq_joined (h1 h2 : Mat a 128) (W : Mat 256 128) (bp1 : Row 128) (Wp2 : Mat 128 128) (bp2 : Row 128)
    (Wp3 : Mat 128 128) (bp3 : Row 128) :
    project h1 h2 (upper W) (lower W) bp1 Wp2 bp2 Wp3 bp3
      = affine (affine (affine (joined h1 h2) W bp1) Wp2 bp2) Wp3 bp3 := by
  unfold project
  rw [affine_joined]

end Cert.Net

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«129887_j63290638074042_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Payloads.lean ====
/-
  What the two kernels' bodies store, entry by entry at the ideal values, as the network's functions of the blocks
  they load.

  Both bodies hold every bias as a one-row block `[1, 128]` and lay it over the 1000 rows of the point's block by a
  (trivial) shape cast and a broadcast: at `(r, q)` that is the block's entry `(0, q)`. A change of float format is the
  identity on the extended reals, so each matrix product into a zero accumulator is the plain row-times-column sum of
  the blocks as loaded. The first kernel's first store is then the perceptron branch of its block of `x`, its second
  store the features of its block of `x_ones`; the second kernel's store is the projector on its blocks of the two
  branches, the first layer mixed from two half products.
-/
import proofs.«129887_j63290638074042_1_alg».proof.Proof.Gen.KernelIdeal.Skeleton
import proofs.«129887_j63290638074042_1_alg».proof.Proof.Spec
import proofs.«129887_j63290638074042_1_alg».proof.Proof.LibPlainDot

noncomputable section

namespace Cert.KernelIdeal.Pay

open Cert.KernelIdeal Cert.KernelIdeal.Gen Idealize.ShloMosaic Idealize.ShloMosaic.ValueIdx
open Cert.DenseLayer Cert.BiasLayer Cert.Net

/-- The `[1000, 512] × [512, 128]` product's dimension numbers are those of a plain product. -/
theorem plain512 : PlainDot dot_S1000x512_S512x128_S1000x128_1_0_0_1_n_n :=
  plainDot_of_axes _ rfl rfl rfl rfl rfl rfl

/-- The `[1000, 128] × [128, 128]` product's dimension numbers are those of a plain product. -/
theorem plain128 : PlainDot dot_S1000x128_S128x128_S1000x128_1_0_0_1_n_n :=
  plainDot_of_axes _ rfl rfl rfl rfl rfl rfl

section Layer

variable {K : ℕ} {φ₁ φ₂ : FTy} {d : DotDims ⟨2, ![1000, K]⟩ ⟨2, ![K, 128]⟩ ⟨2, ![1000, 128]⟩}

/-- A one-row bias block laid over the 1000 rows reads, at `(r, q)`, the block's entry `(0, q)`. -/
theorem bias_rows_apply (b : FVec Ideal S1x128 .f32) (hc : S1x128.ShapeCasts S1x128) (hb : S1x128.Broadcasts S1000x128)
    (r : Fin 1000) (q : Fin 128) :
    broadcastTo S1000x128 (shapeCast S1x128 b hc) hb (ix2 r q) = rowOf b (ix1 q) := by
  rw [shapeCast_self]
  exact broadcastTo_1b_ab_apply b hb r q

/-- A product into the zero accumulator plus the laid-out one-row bias is the dense layer, entry by entry. -/
theorem layer_apply (hd : PlainDot d) (x : FVec Ideal ⟨2, ![1000, K]⟩ φ₁) (w : FVec Ideal ⟨2, ![K, 128]⟩ φ₂)
    (b : FVec Ideal S1x128 .f32) (hc : S1x128.ShapeCasts S1x128) (hb : S1x128.Broadcasts S1000x128)
    (r : Fin 1000) (q : Fin 128) :
    addf (matmul d none x w (constant S1000x128 .f32 0x00000000#32)) (broadcastTo S1000x128 (shapeCast S1x128 b hc) hb) (ix2 r q)
      = affine x w (rowOf b) (ix2 r q) := by
  show FloatOps.matmul d none x w (constant S1000x128 .f32 0x00000000#32) (ix2 r q)
      + broadcastTo S1000x128 (shapeCast S1x128 b hc) hb (ix2 r q) = _
  rw [matmul_zero_apply hd, bias_rows_apply]
  rfl

/-- Followed by the maximum against a splat of the zero word it is the clamped dense layer. -/
theorem relu_layer_apply (hd : PlainDot d) (x : FVec Ideal ⟨2, ![1000, K]⟩ φ₁) (w : FVec Ideal ⟨2, ![K, 128]⟩ φ₂)
    (b : FVec Ideal S1x128 .f32) (hc : S1x128.ShapeCasts S1x128) (hb : S1x128.Broadcasts S1000x128)
    (r : Fin 1000) (q : Fin 128) :
    maximumf (addf (matmul d none x w (constant S1000x128 .f32 0x00000000#32)) (broadcastTo S1000x128 (shapeCast S1x128 b hc) hb))
        (broadcast S1000x128 (Scalar.ofBits (F := Ideal) .f32 0x00000000#32)) (ix2 r q)
      = reluAffine x w (rowOf b) (ix2 r q) := by
  show max (addf (matmul d none x w (constant S1000x128 .f32 0x00000000#32)) (broadcastTo S1000x128 (shapeCast S1x128 b hc) hb) (ix2 r q))
      (Ideal.ofBits .f32 0x00000000#32) = _
  rw [layer_apply hd x w b hc hb r q]
  rfl

/-- Two products into zero accumulators added, plus a one-row bias block broadcast over the rows: the two row
    products plus the block's entry `(0, q)`. -/
theorem two_products_apply (hd : PlainDot d) (x1 x2 : FVec Ideal ⟨2, ![1000, K]⟩ φ₁) (w1 w2 : FVec Ideal ⟨2, ![K, 128]⟩ φ₂)
    (b : FVec Ideal S1x128 .f32) (hb : S1x128.Broadcasts S1000x128) (r : Fin 1000) (q : Fin 128) :
    addf (addf (matmul d none x1 w1 (constant S1000x128 .f32 0x00000000#32))
        (matmul d none x2 w2 (constant S1000x128 .f32 0x00000000#32))) (broadcastTo S1000x128 b hb) (ix2 r q)
      = prodRow x1 w1 r q + prodRow x2 w2 r q + rowOf b (ix1 q) := by
  show FloatOps.matmul d none x1 w1 (constant S1000x128 .f32 0x00000000#32) (ix2 r q)
      + FloatOps.matmul d none x2 w2 (constant S1000x128 .f32 0x00000000#32) (ix2 r q)
      + broadcastTo S1000x128 b hb (ix2 r q) = _
  rw [matmul_zero_apply hd, matmul_zero_apply hd, broadcastTo_1b_ab_apply]
  rfl

end Layer

/-- The first kernel's first store: the perceptron branch of the loaded block of `x`. -/
theorem pay_hidden (v0 : Vec Ideal S1000x512 .f32) (v2 : Vec Ideal S512x128 .f32) (v5 : Vec Ideal S1x128 .f32)
    (v12 : Vec Ideal S128x128 .f32) (v15 : Vec Ideal S1x128 .f32) (r : Fin 1000) (q : Fin 128) :
    k0_pay1 (F := Ideal) v0 v2 v5 v12 v15 (ix2 r q) = Net.hidden v0 v2 (rowOf v5) v12 (rowOf v15) (ix2 r q) := by
  unfold k0_pay1 Net.hidden
  refine (relu_layer_apply plain128 _ _ _ _ _ r q).trans ?_
  exact reluAffine_congr _ _ _ _ r r (fun k => relu_layer_apply plain512 _ _ _ _ _ r k) q

/-- The first kernel's second store: the features of the loaded block of `x_ones`. -/
theorem pay_feat (v22 : Vec Ideal S1000x512 .f32) (v24 : Vec Ideal S512x128 .f32) (r : Fin 1000) (q : Fin 128) :
    k0_pay2 (F := Ideal) v22 v24 (ix2 r q) = feat v22 v24 (ix2 r q) := by
  unfold k0_pay2
  exact matmul_zero_apply plain512 none _ _ (ix2 r q)

/-- The second kernel's store: the projector on the loaded blocks of the two branches, the first layer mixed from
    the two half products. -/
theorem pay_project (v0 v3 : Vec Ideal S1000x128 .f32) (v6 v9 : Vec Ideal S128x128 .f32) (v15 : Vec Ideal S1x128 .f32)
    (v20 : Vec Ideal S128x128 .f32) (v23 : Vec Ideal S1x128 .f32) (v28 : Vec Ideal S128x128 .f32)
    (v31 : Vec Ideal S1x128 .f32) (r : Fin 1000) (q : Fin 128) :
    k1_pay1 (F := Ideal) v0 v3 v6 v9 v15 v20 v23 v28 v31 (ix2 r q)
      = project v0 v3 v6 v9 (rowOf v15) v20 (rowOf v23) v28 (rowOf v31) (ix2 r q) := by
  unfold k1_pay1 project
  refine (layer_apply plain128 _ _ _ _ _ r q).trans ?_
  refine affine_congr _ _ _ _ r r (fun k => (layer_apply plain128 _ _ _ _ _ r k).trans ?_) q
  refine affine_congr _ _ _ _ r r (fun k' => ?_) k
  simp only [shapeCast_self]
  exact two_products_apply plain128 _ _ _ _ _ _ r k'

end Cert.KernelIdeal.Pay

end
-- ==== Proof.Region0Value.lean ====
/-
  The first kernel's two result arrays after its run, as whole-array functions of the arrays it is entered with.

  The grid has 50 points; at point `t` the windows on `x`, `x_ones` and the two results hold rows
  `1000·t … 1000·t + 999` of their arrays, and every other window (the weights and the one-row biases) holds its whole
  array at every point. What point `t` writes back to the first result is the perceptron branch of its block of `x`;
  an entry of that branch depends on `x` only through the entry's row, so the block written is rows
  `1000·t …` of the perceptron branch of the WHOLE `x`. The 50 blocks tile the 50000 rows (row `i` is in block
  `i / 1000`), so the array ends holding that branch; the second result likewise ends holding the features
  `x_ones · Wg`. Stated for any contents `V` the region is entered with.
-/
import proofs.«129887_j63290638074042_1_alg».proof.Proof.KernelIdealFrame
import proofs.«129887_j63290638074042_1_alg».proof.Proof.Payloads
import Idealize.ShloMosaic.Lib.Pipeline.Value

set_option maxRecDepth 16384

noncomputable section

namespace Cert.KernelIdeal.Branches

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.DenseLayer Cert.BiasLayer Cert.Net Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked windows are at block `(t, 0)`, the others at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem lt50 (t : Fin cfg0.N) : t.val < 50 := Nat.lt_of_lt_of_eq t.isLt (show cfg0.N = 50 from N_0)

/-- Row `r` of block `t` is row `1000·t + r` of the array. -/
def rowAt (t : Fin cfg0.N) (r : Fin 1000) : Fin 50000 := ⟨t.val * 1000 + r.val, by have := lt50 t; have := r.isLt; omega⟩

/-! ## The arrays the region is entered with, at their literal types -/

abbrev xArr (c : Dev nD) : Vec Ideal S50000x512 .f32 := V c main_arg0
abbrev xoArr (c : Dev nD) : Vec Ideal S50000x512 .f32 := V c main_arg1
abbrev w1Arr (c : Dev nD) : Vec Ideal S512x128 .f32 := V c main_arg3
abbrev b1Arr (c : Dev nD) : Vec Ideal S1x128 .f32 := V c main_v0
abbrev w2Arr (c : Dev nD) : Vec Ideal S128x128 .f32 := V c main_arg5
abbrev b2Arr (c : Dev nD) : Vec Ideal S1x128 .f32 := V c main_v1
abbrev wgArr (c : Dev nD) : Vec Ideal S512x128 .f32 := V c main_arg7

/-- The perceptron branch of the whole `x`. -/
abbrev hiddenArr (c : Dev nD) : Vec Ideal S50000x128 .f32 :=
  Net.hidden (a := 50000) (xArr V c) (w1Arr V c) (rowOf (b1Arr V c)) (w2Arr V c) (rowOf (b2Arr V c))

/-- The features of the whole `x_ones`. -/
abbrev featArr (c : Dev nD) : Vec Ideal S50000x128 .f32 := feat (a := 50000) (xoArr V c) (wgArr V c)

/-! ## The input windows' blocks -/

/-- Block `t` of `x`, at `(r, k)`, is `x` at row `1000·t + r`. -/
theorem xblk_apply (c : Dev nD) (t : Fin cfg0.N) (r : Fin 1000) (k : Fin 512) :
    (iblk0 V c 0 t : Vec Ideal S1000x512 .f32) (ix2 r k) = xArr V c (ix2 (rowAt t r) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1000 + 1 * r.val = t.val * 1000 + r.val; rw [e0]; omega
  | ⟨1, _⟩ => show win0_0.index t (1 : Fin 2) * 512 + 1 * k.val = k.val; rw [e1]; omega

/-- Block `t` of `x_ones`, at `(r, k)`, is `x_ones` at row `1000·t + r`. -/
theorem xoblk_apply (c : Dev nD) (t : Fin cfg0.N) (r : Fin 1000) (k : Fin 512) :
    (iblk0 V c 1 t : Vec Ideal S1000x512 .f32) (ix2 r k) = xoArr V c (ix2 (rowAt t r) k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 1000 + 1 * r.val = t.val * 1000 + r.val; rw [e0]; omega
  | ⟨1, _⟩ => show win0_1.index t (1 : Fin 2) * 512 + 1 * k.val = k.val; rw [e1]; omega

/-- The window on `W₁` holds the whole array at every point. -/
theorem w1blk_eq (c : Dev nD) (t : Fin cfg0.N) : (iblk0 V c 2 t : Vec Ideal S512x128 .f32) = w1Arr V c := by
  obtain ⟨-, -, -, -, e0, e1, -⟩ := idx_facts t
  funext y
  unfold iblk0
  rw [View.read_apply]
  show V c main_arg3 _ = V c main_arg3 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 128 + 1 * (y 1).val = (y 1).val; rw [e1]; omega

/-- The window on the first bias row holds the whole array at every point. -/
theorem b1blk_eq (c : Dev nD) (t : Fin cfg0.N) : (iblk0 V c 3 t : Vec Ideal S1x128 .f32) = b1Arr V c := by
  obtain ⟨-, -, -, -, -, -, e0, e1, -⟩ := idx_facts t
  funext y
  unfold iblk0
  rw [View.read_apply]
  show V c main_v0 _ = V c main_v0 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The window on `W₂` holds the whole array at every point. -/
theorem w2blk_eq (c : Dev nD) (t : Fin cfg0.N) : (iblk0 V c 4 t : Vec Ideal S128x128 .f32) = w2Arr V c := by
  obtain ⟨-, -, -, -, -, -, -, -, e0, e1, -⟩ := idx_facts t
  funext y
  unfold iblk0
  rw [View.read_apply]
  show V c main_arg5 _ = V c main_arg5 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The window on the second bias row holds the whole array at every point. -/
theorem b2blk_eq (c : Dev nD) (t : Fin cfg0.N) : (iblk0 V c 5 t : Vec Ideal S1x128 .f32) = b2Arr V c := by
  obtain ⟨-, -, -, -, -, -, -, -, -, -, e0, e1, -⟩ := idx_facts t
  funext y
  unfold iblk0
  rw [View.read_apply]
  show V c main_v1 _ = V c main_v1 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The window on `Wg` holds the whole array at every point. -/
theorem wgblk_eq (c : Dev nD) (t : Fin cfg0.N) : (iblk0 V c 6 t : Vec Ideal S512x128 .f32) = wgArr V c := by
  obtain ⟨-, -, -, -, -, -, -, -, -, -, -, -, e0, e1, -⟩ := idx_facts t
  funext y
  unfold iblk0
  rw [View.read_apply]
  show V c main_arg7 _ = V c main_arg7 _
  congr 1
  funext a
  apply Fin.ext
  match a with
  | ⟨0, _⟩ => show win0_6.index t (0 : Fin 2) * 512 + 1 * (y 0).val = (y 0).val; rw [e0]; omega
  | ⟨1, _⟩ => show win0_6.index t (1 : Fin 2) * 128 + 1 * (y 1).val = (y 1).val; rw [e1]; omega

/-! ## The output windows' blocks in their arrays -/

/-- Entry `(r, q)` of the first result's block `t` sits in the array at `(1000·t + r, q)`. -/
theorem emb7 (t : Fin cfg0.N) (r : Fin 1000) (q : Fin 128) :
    ((cfg0.win 7).blk t).view.emb (ix2 r q : S1000x128.Idx) = (ix2 (rowAt t r) q : S50000x128.Idx) := by
  obtain ⟨-, -, -, -, -, -, -, -, -, -, -, -, -, -, e0, e1, -⟩ := idx_facts t
  funext a
  apply Fin.ext
  match a with
  | ⟨0, _⟩ => show win0_7.index t (0 : Fin 2) * 1000 + 1 * r.val = t.val * 1000 + r.val; rw [e0]; omega
  | ⟨1, _⟩ => show win0_7.index t (1 : Fin 2) * 128 + 1 * q.val = q.val; rw [e1]; omega

/-- Entry `(r, q)` of the second result's block `t` sits in the array at `(1000·t + r, q)`. -/
theorem emb8 (t : Fin cfg0.N) (r : Fin 1000) (q : Fin 128) :
    ((cfg0.win 8).blk t).view.emb (ix2 r q : S1000x128.Idx) = (ix2 (rowAt t r) q : S50000x128.Idx) := by
  obtain ⟨-, -, -, -, -, -, -, -, -, -, -, -, -, -, -, -, e0, e1⟩ := idx_facts t
  funext a
  apply Fin.ext
  match a with
  | ⟨0, _⟩ => show win0_8.index t (0 : Fin 2) * 1000 + 1 * r.val = t.val * 1000 + r.val; rw [e0]; omega
  | ⟨1, _⟩ => show win0_8.index t (1 : Fin 2) * 128 + 1 * q.val = q.val; rw [e1]; omega

/-! ## What each point writes back -/

/-- Point `t` writes back, to the first result, block `t` of the perceptron branch of the whole `x`. -/
theorem flushed_hidden (c : Dev nD) (t : Fin cfg0.N) :
    (dat0 V c).flushed 7 t = ((cfg0.win 7).blk t).view.read (Elt Ideal) (hiddenArr V c) := by
  show (cfg0.win 7).cut (grid0.coords t) ((dat0 V c).after 7 t) = _
  rw [after0_7]
  unfold out0_7
  rw [View.canon_unit_zero hz]
  simp only [View.ld_unit_zero (S := S1000x512) hz, View.ld_unit_zero (S := S512x128) hz,
    View.ld_unit_zero (S := S1x128) hz, View.ld_unit_zero (S := S128x128) hz]
  refine funext fun (j : S1000x128.Idx) => ?_
  obtain ⟨r, q, rfl⟩ : ∃ (r : Fin 1000) (q : Fin 128), j = ix2 r q := ⟨j 0, j 1, eq_ix2 (n0 := 1000) (n1 := 128) j⟩
  rw [View.read_apply, emb7]
  refine (pay_hidden _ _ _ _ _ r q).trans ?_
  rw [w1blk_eq, b1blk_eq, w2blk_eq, b2blk_eq]
  exact hidden_congr _ _ _ _ _ _ r (rowAt t r) (fun k => xblk_apply V c t r k) q

/-- Point `t` writes back, to the second result, block `t` of the features of the whole `x_ones`. -/
theorem flushed_feat (c : Dev nD) (t : Fin cfg0.N) :
    (dat0 V c).flushed 8 t = ((cfg0.win 8).blk t).view.read (Elt Ideal) (featArr V c) := by
  show (cfg0.win 8).cut (grid0.coords t) ((dat0 V c).after 8 t) = _
  rw [after0_8]
  unfold out0_8
  rw [View.canon_unit_zero hz]
  simp only [View.ld_unit_zero (S := S1000x512) hz, View.ld_unit_zero (S := S512x128) hz]
  refine funext fun (j : S1000x128.Idx) => ?_
  obtain ⟨r, q, rfl⟩ : ∃ (r : Fin 1000) (q : Fin 128), j = ix2 r q := ⟨j 0, j 1, eq_ix2 (n0 := 1000) (n1 := 128) j⟩
  rw [View.read_apply, emb8]
  refine (pay_feat _ _ r q).trans ?_
  rw [wgblk_eq]
  exact feat_congr _ _ _ r (rowAt t r) (fun k => xoblk_apply V c t r k) q

/-! ## The cover: row `i` is in block `i / 1000` -/

theorem mem_blk7 (t : Fin cfg0.N) (i : S50000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v5_0).slice (win0_7.rect t)).set ↔ _
  rw [View.set_slice_whole, Rect.mem_set_unit]
  exact Iff.rfl

theorem mem_blk8 (t : Fin cfg0.N) (i : S50000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v5_1).slice (win0_8.rect t)).set ↔ _
  rw [View.set_slice_whole, Rect.mem_set_unit]
  exact Iff.rfl

/-- The point whose blocks hold row `i`. -/
def pointOf (i : S50000x128.Idx) : Fin cfg0.N :=
  ⟨(i 0).val / 1000, by rw [show cfg0.N = 50 from N_0]; have : (i 0).val < 50000 := (i 0).isLt; omega⟩

theorem cover7 (i : S50000x128.Idx) : ∃ t : Fin cfg0.N, (cfg0.win 7).flush t = true ∧ i ∈ ((cfg0.win 7).blk t).view.set := by
  refine ⟨pointOf i, flush0_7 _, ?_⟩
  obtain ⟨-, -, -, -, -, -, -, -, -, -, -, -, -, -, e0, e1, -⟩ := idx_facts (pointOf i)
  have h0 : (i 0).val < 50000 := (i 0).isLt
  have h1 : (i 1).val < 128 := (i 1).isLt
  have hp : (pointOf i).val = (i 0).val / 1000 := rfl
  rw [mem_blk7]
  intro a
  match a with
  | ⟨0, _⟩ => show win0_7.index (pointOf i) (0 : Fin 2) * 1000 ≤ (i 0).val ∧ (i 0).val < win0_7.index (pointOf i) (0 : Fin 2) * 1000 + 1000; rw [e0, hp]; omega
  | ⟨1, _⟩ => show win0_7.index (pointOf i) (1 : Fin 2) * 128 ≤ (i 1).val ∧ (i 1).val < win0_7.index (pointOf i) (1 : Fin 2) * 128 + 128; rw [e1]; omega

theorem cover8 (i : S50000x128.Idx) : ∃ t : Fin cfg0.N, (cfg0.win 8).flush t = true ∧ i ∈ ((cfg0.win 8).blk t).view.set := by
  refine ⟨pointOf i, flush0_8 _, ?_⟩
  obtain ⟨-, -, -, -, -, -, -, -, -, -, -, -, -, -, -, -, e0, e1⟩ := idx_facts (pointOf i)
  have h0 : (i 0).val < 50000 := (i 0).isLt
  have h1 : (i 1).val < 128 := (i 1).isLt
  have hp : (pointOf i).val = (i 0).val / 1000 := rfl
  rw [mem_blk8]
  intro a
  match a with
  | ⟨0, _⟩ => show win0_8.index (pointOf i) (0 : Fin 2) * 1000 ≤ (i 0).val ∧ (i 0).val < win0_8.index (pointOf i) (0 : Fin 2) * 1000 + 1000; rw [e0, hp]; omega
  | ⟨1, _⟩ => show win0_8.index (pointOf i) (1 : Fin 2) * 128 ≤ (i 1).val ∧ (i 1).val < win0_8.index (pointOf i) (1 : Fin 2) * 128 + 128; rw [e1]; omega

/-! ## The two arrays after the run -/

/-- The first result array ends holding the perceptron branch of `x`. -/
theorem final_hidden (c : Dev nD) : (dat0 V c).arrAt 7 cfg0.N = hiddenArr V c :=
  (dat0 V c).arrAt_eq_of_cover 7 (hiddenArr V c) (fun t _ => flushed_hidden V c t) cover7

/-- The second result array ends holding the features `x_ones · Wg`. -/
theorem final_feat (c : Dev nD) : (dat0 V c).arrAt 8 cfg0.N = featArr V c :=
  (dat0 V c).arrAt_eq_of_cover 8 (featArr V c) (fun t _ => flushed_feat V c t) cover8

end Cert.KernelIdeal.Branches

end
-- ==== Proof.Region1Value.lean ====
/-
  The second kernel's result array after its run, as a whole-array function of the arrays it is entered with.

  The grid has 50 points; at point `t` the windows on the two branches and on the result hold rows
  `1000·t … 1000·t + 999` of their arrays, and every other window (the projector's weights and one-row biases) holds its
  whole array at every point. What point `t` writes back is the projector on its blocks of the two branches; an
  entry of the projector depends on the branches only through the entry's row, so the block written is rows
  `1000·t …` of the projector on the WHOLE branches. The 50 blocks tile the 50000 rows, so the array ends holding
  the projector of the whole branches. Stated for any contents `V` the region is entered with.
-/
import proofs.«129887_j63290638074042_1_alg».proof.Proof.KernelIdealFrame
import proofs.«129887_j63290638074042_1_alg».proof.Proof.Payloads
import Idealize.ShloMosaic.Lib.Pipeline.Value

set_option maxRecDepth 16384

noncomputable section

namespace Cert.KernelIdeal.Projector

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.DenseLayer Cert.BiasLayer Cert.Net Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows are at block `(t, 0)`, the others at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem lt50 (t : Fin cfg1.N) : t.val < 50 := Nat.lt_of_lt_of_eq t.isLt (show cfg1.N = 50 from N_1)

/-- Row `r` of block `t` is row `1000·t + r` of the array. -/
def rowAt (t : Fin cfg1.N) (r : Fin 1000) : Fin 50000 := ⟨t.val * 1000 + r.val, by have := lt50 t; have := r.isLt; omega⟩

/-! ## The arrays the region is entered with, at their literal types -/

abbrev h1Arr (c : Dev nD) : Vec Ideal S50000x128 .f32 := V c main_v5_0
abbrev h2Arr (c : Dev nD) : Vec Ideal S50000x128 .f32 := V c main_v50
abbrev waArr (c : Dev nD) : Vec Ideal S128x128 .f32 := V c main_v51
abbrev wbArr (c : Dev nD) : Vec Ideal S128x128 .f32 := V c main_v52
abbrev bp1Arr (c : Dev nD) : Vec Ideal S1x128 .f32 := V c main_v2
abbrev wp2Arr (c : Dev nD) : Vec Ideal S128x128 .f32 := V c main_arg11
abbrev bp2Arr (c : Dev nD) : Vec Ideal S1x128 .f32 := V c main_v3
abbrev wp3Arr (c : Dev nD) : Vec Ideal S128x128 .f32 := V c main_arg13
abbrev bp3Arr (c : Dev nD) : Vec Ideal S1x128 .f32 := V c main_v4

/-- The projector on the whole branches. -/
abbrev projectArr (c : Dev nD) : Vec Ideal S50000x128 .f32 :=
  project (a := 50000) (h1Arr V c) (h2Arr V c) (waArr V c) (wbArr V c) (rowOf (bp1Arr V c)) (wp2Arr V c) (rowOf (bp2Arr V c))
    (wp3Arr V c) (rowOf (bp3Arr V c))

/-! ## The input windows' blocks -/

/-- Block `t` of the first branch, at `(r, k)`, is the branch at row `1000·t + r`. -/
theorem h1blk_apply (c : Dev nD) (t : Fin cfg1.N) (r : Fin 1000) (k : Fin 128) :
    (iblk1 V c 0 t : Vec Ideal S1000x128 .f32) (ix2 r k) = h1Arr V c (ix2 (rowAt t r) k) := by
  obtain ⟨e0, e1, -⟩ := idx_facts t
  unfold iblk1
  rw [View.read_apply]
  show V c main_v5_0 _ = V c main_v5_0 _
  congr 1
  funext a
  apply Fin.ext
  match a with
  | ⟨0, _⟩ => show win1_0.index t (0 : Fin 2) * 1000 + 1 * r.val = t.val * 1000 + r.val; rw [e0]; omega
  | ⟨1, _⟩ => show win1_0.index t (1 : Fin 2) * 128 + 1 * k.val = k.val; rw [e1]; omega

/-- Block `t` of the second branch, at `(r, k)`, is the branch at row `1000·t + r`. -/
theorem h2blk_apply (c : Dev nD) (t : Fin cfg1.N) (r : Fin 1000) (k : Fin 128) :
    (iblk1 V c 1 t : Vec Ideal S1000x128 .f32) (ix2 r k) = h2Arr V c (ix2 (rowAt t r) k) := by
  obtain ⟨-, -, e0, e1, -⟩ := idx_facts t
  unfold iblk1
  rw [View.read_apply]
  show V c main_v50 _ = V c main_v50 _
  congr 1
  funext a
  apply Fin.ext
  match a with
  | ⟨0, _⟩ => show win1_1.index t (0 : Fin 2) * 1000 + 1 * r.val = t.val * 1000 + r.val; rw [e0]; omega
  | ⟨1, _⟩ => show win1_1.index t (1 : Fin 2) * 128 + 1 * k.val = k.val; rw [e1]; omega

/-- The window on the upper half of `Wp₁` holds the whole array at every point. -/
theorem wablk_eq (c : Dev nD) (t : Fin cfg1.N) : (iblk1 V c 2 t : Vec Ideal S128x128 .f32) = waArr V c := by
  obtain ⟨-, -, -, -, e0, e1, -⟩ := idx_facts t
  funext y
  unfold iblk1
  rw [View.read_apply]
  show V c main_v51 _ = V c main_v51 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The window on the lower half of `Wp₁` holds the whole array at every point. -/
theorem wbblk_eq (c : Dev nD) (t : Fin cfg1.N) : (iblk1 V c 3 t : Vec Ideal S128x128 .f32) = wbArr V c := by
  obtain ⟨-, -, -, -, -, -, e0, e1, -⟩ := idx_facts t
  funext y
  unfold iblk1
  rw [View.read_apply]
  show V c main_v52 _ = V c main_v52 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The window on the first projector bias row holds the whole array at every point. -/
theorem bp1blk_eq (c : Dev nD) (t : Fin cfg1.N) : (iblk1 V c 4 t : Vec Ideal S1x128 .f32) = bp1Arr V c := by
  obtain ⟨-, -, -, -, -, -, -, -, e0, e1, -⟩ := idx_facts t
  funext y
  unfold iblk1
  rw [View.read_apply]
  show V c main_v2 _ = V c main_v2 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The window on `Wp₂` holds the whole array at every point. -/
theorem wp2blk_eq (c : Dev nD) (t : Fin cfg1.N) : (iblk1 V c 5 t : Vec Ideal S128x128 .f32) = wp2Arr V c := by
  obtain ⟨-, -, -, -, -, -, -, -, -, -, e0, e1, -⟩ := idx_facts t
  funext y
  unfold iblk1
  rw [View.read_apply]
  show V c main_arg11 _ = V c main_arg11 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The window on the second projector bias row holds the whole array at every point. -/
theorem bp2blk_eq (c : Dev nD) (t : Fin cfg1.N) : (iblk1 V c 6 t : Vec Ideal S1x128 .f32) = bp2Arr V c := by
  obtain ⟨-, -, -, -, -, -, -, -, -, -, -, -, e0, e1, -⟩ := idx_facts t
  funext y
  unfold iblk1
  rw [View.read_apply]
  show V c main_v3 _ = V c main_v3 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The window on `Wp₃` holds the whole array at every point. -/
theorem wp3blk_eq (c : Dev nD) (t : Fin cfg1.N) : (iblk1 V c 7 t : Vec Ideal S128x128 .f32) = wp3Arr V c := by
  obtain ⟨-, -, -, -, -, -, -, -, -, -, -, -, -, -, e0, e1, -⟩ := idx_facts t
  funext y
  unfold iblk1
  rw [View.read_apply]
  show V c main_arg13 _ = V c main_arg13 _
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

/-- The window on the third projector bias row holds the whole array at every point. -/
theorem bp3blk_eq (c : Dev nD) (t : Fin cfg1.N) : (iblk1 V c 8 t : Vec Ideal S1x128 .f32) = bp3Arr V c := by
  obtain ⟨-, -, -, -, -, -, -, -, -, -, -, -, -, -, -, -, e0, e1, -⟩ := idx_facts t
  funext y
  unfold iblk1
  rw [View.read_apply]
  show V c main_v4 _ = V c main_v4 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-! ## The output window's blocks in its array -/

/-- Entry `(r, q)` of the result's block `t` sits in the array at `(1000·t + r, q)`. -/
theorem emb9 (t : Fin cfg1.N) (r : Fin 1000) (q : Fin 128) :
    ((cfg1.win 9).blk t).view.emb (ix2 r q : S1000x128.Idx) = (ix2 (rowAt t r) q : S50000x128.Idx) := by
  obtain ⟨-, -, -, -, -, -, -, -, -, -, -, -, -, -, -, -, -, -, e0, e1⟩ := idx_facts t
  funext a
  apply Fin.ext
  match a with
  | ⟨0, _⟩ => show win1_9.index t (0 : Fin 2) * 1000 + 1 * r.val = t.val * 1000 + r.val; rw [e0]; omega
  | ⟨1, _⟩ => show win1_9.index t (1 : Fin 2) * 128 + 1 * q.val = q.val; rw [e1]; omega

/-! ## What each point writes back -/

/-- Point `t` writes back block `t` of the projector on the whole branches. -/
theorem flushed_project (c : Dev nD) (t : Fin cfg1.N) :
    (dat1 V c).flushed 9 t = ((cfg1.win 9).blk t).view.read (Elt Ideal) (projectArr V c) := by
  show (cfg1.win 9).cut (grid1.coords t) ((dat1 V c).after 9 t) = _
  rw [after1_9]
  unfold out1_9
  rw [View.canon_unit_zero hz]
  simp only [View.ld_unit_zero (S := S1000x128) hz, View.ld_unit_zero (S := S128x128) hz, View.ld_unit_zero (S := S1x128) hz]
  refine funext fun (j : S1000x128.Idx) => ?_
  obtain ⟨r, q, rfl⟩ : ∃ (r : Fin 1000) (q : Fin 128), j = ix2 r q := ⟨j 0, j 1, eq_ix2 (n0 := 1000) (n1 := 128) j⟩
  rw [View.read_apply, emb9]
  refine (pay_project _ _ _ _ _ _ _ _ _ r q).trans ?_
  rw [wablk_eq, wbblk_eq, bp1blk_eq, wp2blk_eq, bp2blk_eq, wp3blk_eq, bp3blk_eq]
  exact project_congr _ _ _ _ _ _ _ _ _ _ _ r (rowAt t r) (fun k => h1blk_apply V c t r k) (fun k => h2blk_apply V c t r k) q

/-! ## The cover: row `i` is in block `i / 1000` -/

theorem mem_blk9 (t : Fin cfg1.N) (i : S50000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v53).slice (win1_9.rect t)).set ↔ _
  rw [View.set_slice_whole, Rect.mem_set_unit]
  exact Iff.rfl

/-- The point whose blocks hold row `i`. -/
def pointOf (i : S50000x128.Idx) : Fin cfg1.N :=
  ⟨(i 0).val / 1000, by rw [show cfg1.N = 50 from N_1]; have : (i 0).val < 50000 := (i 0).isLt; omega⟩

theorem cover9 (i : S50000x128.Idx) : ∃ t : Fin cfg1.N, (cfg1.win 9).flush t = true ∧ i ∈ ((cfg1.win 9).blk t).view.set := by
  refine ⟨pointOf i, flush1_9 _, ?_⟩
  obtain ⟨-, -, -, -, -, -, -, -, -, -, -, -, -, -, -, -, -, -, e0, e1⟩ := idx_facts (pointOf i)
  have h0 : (i 0).val < 50000 := (i 0).isLt
  have h1 : (i 1).val < 128 := (i 1).isLt
  have hp : (pointOf i).val = (i 0).val / 1000 := rfl
  rw [mem_blk9]
  intro a
  match a with
  | ⟨0, _⟩ => show win1_9.index (pointOf i) (0 : Fin 2) * 1000 ≤ (i 0).val ∧ (i 0).val < win1_9.index (pointOf i) (0 : Fin 2) * 1000 + 1000; rw [e0, hp]; omega
  | ⟨1, _⟩ => show win1_9.index (pointOf i) (1 : Fin 2) * 128 ≤ (i 1).val ∧ (i 1).val < win1_9.index (pointOf i) (1 : Fin 2) * 128 + 128; rw [e1]; omega

/-! ## The array after the run -/

/-- The result array ends holding the projector of the whole branches. -/
theorem final_project (c : Dev nD) : (dat1 V c).arrAt 9 cfg1.N = projectArr V c :=
  (dat1 V c).arrAt_eq_of_cover 9 (projectArr V c) (fun t _ => flushed_project V c t) cover9

end Cert.KernelIdeal.Projector

end
-- ==== Proof.Aggregate.lean ====
/-
  The graph branch's aggregation, as one function of the node features, the edge list and the bias.

  Both programs run the same chain of host operations here, so the chain is only NAMED, never read at an index: the
  certificate compares what goes INTO it. In words: the 800000 edges are followed by the 50000 self loops, giving
  850000 (source, target) pairs; a node's degree is the number of pairs that target it; its normaliser is
  `rsqrt (max (degree, 1))`; an edge's coefficient is the product of its two endpoints' normalisers (a negative
  endpoint counted from the end, as array indexing does); each target node receives the sum, over the edges into it,
  of the source's feature row times the edge's coefficient; and the bias row is added to every node.

  Generic in the float family; the pieces are stated over the first program's shape records, which the other program's
  copies equal by unfolding (same lists of axes, and a proof of well-formedness is any proof).
-/
import proofs.«129887_j63290638074042_1_alg».proof.KernelIdeal
import proofs.«129887_j63290638074042_1_alg».proof.Proof.Gen.KernelIdeal

noncomputable section

namespace Cert.KernelIdeal.Agg

open Cert.KernelIdeal Cert.KernelIdeal.Gen Idealize.ShloMosaic

variable {F : FTy → Type} [FloatOps F]

/-- Row `off 0` of the `[2, 800000]` edge list followed by the self loops `0 … 49999`: one endpoint of each of
    the 850000 edges. -/
def endpoints (off : Fin 2 → ℕ) (h : S2x800000.Slices off S1x800000) (ei : (⟨S2x800000, .i32⟩ : BufTy).Contents (Elt F)) :
    (⟨S850000, .i32⟩ : BufTy).Contents (Elt F) :=
  concatenate S850000 0 [⟨S800000, (shapeCast _ (extractStridedSlice S1x800000 off ei h) shapeCasts_S1x800000_S800000)⟩,
    ⟨S50000, (iotaInDim S50000 32 0)⟩] concatenates_S800000_S50000_S850000_d0

/-- The edges' sources. -/
def sources (ei : (⟨S2x800000, .i32⟩ : BufTy).Contents (Elt F)) : (⟨S850000, .i32⟩ : BufTy).Contents (Elt F) :=
  endpoints ![0, 0] slices_S2x800000_S1x800000_0_0 ei

/-- The edges' targets. -/
def targets (ei : (⟨S2x800000, .i32⟩ : BufTy).Contents (Elt F)) : (⟨S850000, .i32⟩ : BufTy).Contents (Elt F) :=
  endpoints ![1, 0] slices_S2x800000_S1x800000_1_0 ei

/-- An endpoint as array indexing reads it: a negative one counted from the end of the 50000 nodes. -/
def wrapped (i : (⟨S850000, .i32⟩ : BufTy).Contents (Elt F)) : (⟨S850000, .i32⟩ : BufTy).Contents (Elt F) :=
  select (cmpi .slt i (broadcastInDim S850000 ![] bcast_S_S850000 (constantI S_ 32 0#32)))
    (addi i (broadcastInDim S850000 ![] bcast_S_S850000 (constantI S_ 32 50000#32))) i

/-- Each node's normaliser: the reciprocal square root of its in-degree, the degree clamped at one from below. -/
def normaliser (ei : (⟨S2x800000, .i32⟩ : BufTy).Contents (Elt F)) : (⟨S50000, .f32⟩ : BufTy).Contents (Elt F) :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 (targets ei))
      (broadcastInDim S850000 ![] bcast_S_S850000 (constant S_ .f32 0x3F800000#32)))
    (broadcastInDim S50000 ![] bcast_S_S50000 (constant S_ .f32 0x3F800000#32)))

/-- Each edge's coefficient: its source's normaliser times its target's. -/
def coefficient (ei : (⟨S2x800000, .i32⟩ : BufTy).Contents (Elt F)) : (⟨S850000, .f32⟩ : BufTy).Contents (Elt F) :=
  mulf
    (Host.gather gather_S50000_S850000x1_S850000_n_0_n_n_0_1_1 (normaliser ei)
      (broadcastInDim S850000x1 ![0] bcast_S850000_S850000x1_0 (wrapped (sources ei))))
    (Host.gather gather_S50000_S850000x1_S850000_n_0_n_n_0_1_1 (normaliser ei)
      (broadcastInDim S850000x1 ![0] bcast_S850000_S850000x1_0 (wrapped (targets ei))))

/-- The aggregation: every node receives the sum over the edges into it of the source's feature row times the edge's
    coefficient, plus the bias row. -/
def aggregate (xt : (⟨S50000x128, .f32⟩ : BufTy).Contents (Elt F)) (ei : (⟨S2x800000, .i32⟩ : BufTy).Contents (Elt F))
    (bg : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 (targets ei))
      (mulf
        (Host.gather gather_S50000x128_S850000x1_S850000x128_1_0_n_n_0_1_1128 xt
          (broadcastInDim S850000x1 ![0] bcast_S850000_S850000x1_0 (wrapped (sources ei))))
        (broadcastInDim S850000x128 ![0, 1] bcast_S850000x1_S850000x128_0_1
          (broadcastInDim S850000x1 ![0] bcast_S850000_S850000x1_0 (coefficient ei)))))
    (broadcastInDim S50000x128 ![0, 1] bcast_S1x128_S50000x128_0_1 (broadcastInDim S1x128 ![1] bcast_S128_S1x128_1 bg))

end Cert.KernelIdeal.Agg

end
-- ==== Proof.Network.lean ====
/-
  The whole network as ONE function of the fifteen argument arrays, index by index, in the spelling that joins the two
  branches side by side before the projector:

    out = ((([ hidden x W₁ b₁ W₂ b₂ | aggregate (x₁·Wg) edges bg ] · Wp₁ + bp₁) · Wp₂ + bp₂) · Wp₃ + bp₃ .

  Both programs' result arrays are shown to hold this function of their arguments; the program that multiplies each
  branch by its own half of `Wp₁` meets it through `project_eq_joined`.
-/
import proofs.«129887_j63290638074042_1_alg».proof.Proof.Spec
import proofs.«129887_j63290638074042_1_alg».proof.Proof.Aggregate

noncomputable section

namespace Cert.Net

open Idealize.ShloMosaic Idealize.ShloMosaic.ValueIdx Cert.DenseLayer Cert.BiasLayer Cert.KernelIdeal

/-- The network's result, `[50000, 128]`, from the argument arrays. -/
def network (x xo : Mat 50000 512) (ei : (⟨S2x800000, .i32⟩ : BufTy).Contents (Elt Ideal)) (W1 : Mat 512 128) (b1 : Row 128)
    (W2 : Mat 128 128) (b2 : Row 128) (Wg : Mat 512 128) (bg : Row 128) (Wp1 : Mat 256 128) (bp1 : Row 128)
    (Wp2 : Mat 128 128) (bp2 : Row 128) (Wp3 : Mat 128 128) (bp3 : Row 128) : Mat 50000 128 :=
  affine (affine (affine
    (joined (hidden x W1 b1 W2 b2) (Agg.aggregate (F := Ideal) (feat xo Wg) ei bg)) Wp1 bp1) Wp2 bp2) Wp3 bp3

end Cert.Net

end
-- ==== Proof.KernelValue.lean ====
/-
  The first program's result array as the network of its fifteen arguments.

  The run leaves the result at the last segment boundary's contents. Those are read backwards through the program:
  the projector region leaves the projector of the two branch arrays it is entered with; the host stretch before it
  wrote the second branch as the aggregation of the features array, took the two halves of `Wp₁` by slices, and
  touched neither the first branch nor the one-row biases; the first region left the perceptron branch and the
  features of the arrays it was entered with; and the first host stretch only reshaped the five biases into rows.
  A bias reshaped into a row and read back as a vector is the bias; rows `0 …` and `128 …` of `Wp₁` taken by slices
  are its upper and lower halves. So the result is the projector, its first layer mixed from the two halves, of the
  perceptron branch and the aggregated features — which is the joined network (`project_eq_joined`).
-/
import proofs.«129887_j63290638074042_1_alg».proof.Proof.KernelIdealRun
import proofs.«129887_j63290638074042_1_alg».proof.Proof.Region0Value
import proofs.«129887_j63290638074042_1_alg».proof.Proof.Region1Value
import proofs.«129887_j63290638074042_1_alg».proof.Proof.Network

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Cert.DenseLayer Cert.BiasLayer Cert.Net

/-! ## The boundaries' contents, for any float family -/

section Boundaries

variable {F : FTy → Type} [FloatOps F]
variable (m : (ℓ : Loc nD τ sig) → Buf (Elt F) ℓ) (ρ : Dev nD → PrngReg)

/-! ### After the first host stretch: the arguments as launched, each bias reshaped into a row -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results

theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results

theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results

theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results

theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results

theorem W1_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results

theorem W1_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results

theorem W1_arg13 (c : Dev nD) : W1 m ρ c (Proc.devRef .tc main_arg13) = m ((c : Thread nD τ).loc main_arg13) := by
  show StableHlo.after hostOps0 (W0 m ρ c) (Proc.devRef .tc main_arg13) = _
  dsimp only [hostOps0]
  after_results

theorem W1_main_v0 (c : Dev nD) :
    W1 m ρ c (Proc.devRef .tc main_v0) = shapeCast S1x128 (m ((c : Thread nD τ).loc main_arg4)) shapeCasts_S128_S1x128 := by
  show StableHlo.after hostOps0 (W0 m ρ c) (Proc.devRef .tc main_v0) = _
  dsimp only [hostOps0]
  after_results
  rfl

theorem W1_main_v1 (c : Dev nD) :
    W1 m ρ c (Proc.devRef .tc main_v1) = shapeCast S1x128 (m ((c : Thread nD τ).loc main_arg6)) shapeCasts_S128_S1x128 := by
  show StableHlo.after hostOps0 (W0 m ρ c) (Proc.devRef .tc main_v1) = _
  dsimp only [hostOps0]
  after_results
  rfl

theorem W1_main_v2 (c : Dev nD) :
    W1 m ρ c (Proc.devRef .tc main_v2) = shapeCast S1x128 (m ((c : Thread nD τ).loc main_arg10)) shapeCasts_S128_S1x128 := by
  show StableHlo.after hostOps0 (W0 m ρ c) (Proc.devRef .tc main_v2) = _
  dsimp only [hostOps0]
  after_results
  rfl

theorem W1_main_v3 (c : Dev nD) :
    W1 m ρ c (Proc.devRef .tc main_v3) = shapeCast S1x128 (m ((c : Thread nD τ).loc main_arg12)) shapeCasts_S128_S1x128 := by
  show StableHlo.after hostOps0 (W0 m ρ c) (Proc.devRef .tc main_v3) = _
  dsimp only [hostOps0]
  after_results
  rfl

theorem W1_main_v4 (c : Dev nD) :
    W1 m ρ c (Proc.devRef .tc main_v4) = shapeCast S1x128 (m ((c : Thread nD τ).loc main_arg14)) shapeCasts_S128_S1x128 := by
  show StableHlo.after hostOps0 (W0 m ρ c) (Proc.devRef .tc main_v4) = _
  dsimp only [hostOps0]
  after_results
  rfl

/-! ### After the first region: everything but its two results as before -/

theorem W2_main_arg2 (c : Dev nD) : W2 m ρ c (Proc.devRef .tc main_arg2) = W1 m ρ c (Proc.devRef .tc main_arg2) :=
  W2_of_ne m ρ c main_arg2 (by decide)

theorem W2_main_arg8 (c : Dev nD) : W2 m ρ c (Proc.devRef .tc main_arg8) = W1 m ρ c (Proc.devRef .tc main_arg8) :=
  W2_of_ne m ρ c main_arg8 (by decide)

theorem W2_main_arg9 (c : Dev nD) : W2 m ρ c (Proc.devRef .tc main_arg9) = W1 m ρ c (Proc.devRef .tc main_arg9) :=
  W2_of_ne m ρ c main_arg9 (by decide)

theorem W2_main_arg11 (c : Dev nD) : W2 m ρ c (Proc.devRef .tc main_arg11) = W1 m ρ c (Proc.devRef .tc main_arg11) :=
  W2_of_ne m ρ c main_arg11 (by decide)

theorem W2_main_arg13 (c : Dev nD) : W2 m ρ c (Proc.devRef .tc main_arg13) = W1 m ρ c (Proc.devRef .tc main_arg13) :=
  W2_of_ne m ρ c main_arg13 (by decide)

theorem W2_main_v2 (c : Dev nD) : W2 m ρ c (Proc.devRef .tc main_v2) = W1 m ρ c (Proc.devRef .tc main_v2) :=
  W2_of_ne m ρ c main_v2 (by decide)

theorem W2_main_v3 (c : Dev nD) : W2 m ρ c (Proc.devRef .tc main_v3) = W1 m ρ c (Proc.devRef .tc main_v3) :=
  W2_of_ne m ρ c main_v3 (by decide)

theorem W2_main_v4 (c : Dev nD) : W2 m ρ c (Proc.devRef .tc main_v4) = W1 m ρ c (Proc.devRef .tc main_v4) :=
  W2_of_ne m ρ c main_v4 (by decide)

theorem W2_hidden (c : Dev nD) : W2 m ρ c (Proc.devRef .tc main_v5_0) = (dat0 (V1 m ρ) c).arrAt 7 cfg0.N := W2_arr m ρ c 7

theorem W2_feat (c : Dev nD) : W2 m ρ c (Proc.devRef .tc main_v5_1) = (dat0 (V1 m ρ) c).arrAt 8 cfg0.N := W2_arr m ρ c 8

/-! ### After the second host stretch -/

theorem W3_main_v5_0 (c : Dev nD) : W3 m ρ c (Proc.devRef .tc main_v5_0) = W2 m ρ c (Proc.devRef .tc main_v5_0) := by
  show StableHlo.after hostOps1 (W2 m ρ c) (Proc.devRef .tc main_v5_0) = _
  generalize W2 m ρ c = X
  dsimp only [hostOps1]
  after_results_simp

theorem W3_main_arg11 (c : Dev nD) : W3 m ρ c (Proc.devRef .tc main_arg11) = W2 m ρ c (Proc.devRef .tc main_arg11) := by
  show StableHlo.after hostOps1 (W2 m ρ c) (Proc.devRef .tc main_arg11) = _
  generalize W2 m ρ c = X
  dsimp only [hostOps1]
  after_results_simp

theorem W3_main_arg13 (c : Dev nD) : W3 m ρ c (Proc.devRef .tc main_arg13) = W2 m ρ c (Proc.devRef .tc main_arg13) := by
  show StableHlo.after hostOps1 (W2 m ρ c) (Proc.devRef .tc main_arg13) = _
  generalize W2 m ρ c = X
  dsimp only [hostOps1]
  after_results_simp

theorem W3_main_v2 (c : Dev nD) : W3 m ρ c (Proc.devRef .tc main_v2) = W2 m ρ c (Proc.devRef .tc main_v2) := by
  show StableHlo.after hostOps1 (W2 m ρ c) (Proc.devRef .tc main_v2) = _
  generalize W2 m ρ c = X
  dsimp only [hostOps1]
  after_results_simp

theorem W3_main_v3 (c : Dev nD) : W3 m ρ c (Proc.devRef .tc main_v3) = W2 m ρ c (Proc.devRef .tc main_v3) := by
  show StableHlo.after hostOps1 (W2 m ρ c) (Proc.devRef .tc main_v3) = _
  generalize W2 m ρ c = X
  dsimp only [hostOps1]
  after_results_simp

theorem W3_main_v4 (c : Dev nD) : W3 m ρ c (Proc.devRef .tc main_v4) = W2 m ρ c (Proc.devRef .tc main_v4) := by
  show StableHlo.after hostOps1 (W2 m ρ c) (Proc.devRef .tc main_v4) = _
  generalize W2 m ρ c = X
  dsimp only [hostOps1]
  after_results_simp

set_option maxHeartbeats 4000000 in
/-- The second branch's array is the aggregation of the features array, the edge list and the bias as they stand
    when the stretch is entered. -/
theorem W3_aggregate (c : Dev nD) :
    W3 m ρ c (Proc.devRef .tc main_v50)
      = Agg.aggregate (W2 m ρ c (Proc.devRef .tc main_v5_1)) (W2 m ρ c (Proc.devRef .tc main_arg2)) (W2 m ρ c (Proc.devRef .tc main_arg8)) := by
  show StableHlo.after hostOps1 (W2 m ρ c) (Proc.devRef .tc main_v50) = _
  generalize W2 m ρ c = X
  dsimp only [hostOps1]
  after_results_simp
  rfl

theorem W3_upper (c : Dev nD) :
    W3 m ρ c (Proc.devRef .tc main_v51)
      = extractStridedSlice S128x128 ![0, 0] (W2 m ρ c (Proc.devRef .tc main_arg9)) slices_S256x128_S128x128_0_0 := by
  show StableHlo.after hostOps1 (W2 m ρ c) (Proc.devRef .tc main_v51) = _
  generalize W2 m ρ c = X
  dsimp only [hostOps1]
  after_results_simp

theorem W3_lower (c : Dev nD) :
    W3 m ρ c (Proc.devRef .tc main_v52)
      = extractStridedSlice S128x128 ![128, 0] (W2 m ρ c (Proc.devRef .tc main_arg9)) slices_S256x128_S128x128_128_0 := by
  show StableHlo.after hostOps1 (W2 m ρ c) (Proc.devRef .tc main_v52) = _
  generalize W2 m ρ c = X
  dsimp only [hostOps1]
  after_results_simp

/-- The result array is the second region's output window's array. -/
theorem W4_result (c : Dev nD) : W4 m ρ c (Proc.devRef .tc main_v53) = (dat1 (V3 m ρ) c).arrAt 9 cfg1.N := W4_arr m ρ c 9

end Boundaries

/-! ## Layout steps read as vectors and halves -/

/-- A bias reshaped into a one-row matrix, read back as its row, is the bias. -/
theorem rowOf_reshape (b : Row 128) (h : S128.ShapeCasts S1x128) : rowOf (shapeCast S1x128 b h) = b :=
  funext fun j => by
    obtain ⟨q, rfl⟩ : ∃ q : Fin 128, j = ix1 q := ⟨j 0, eq_ix1 j⟩
    exact shapeCast_n_1n_apply b h 0 q

/-- Rows `0 … 127` of `Wp₁` taken by a slice are its upper half. -/
theorem slice_upper (W : Mat 256 128) (h : S256x128.Slices ![0, 0] S128x128) :
    extractStridedSlice S128x128 ![0, 0] W h = upper W :=
  funext fun j => by
    obtain ⟨k, q, rfl⟩ : ∃ (k : Fin 128) (q : Fin 128), j = ix2 k q := ⟨j 0, j 1, eq_ix2 j⟩
    refine extractStridedSlice_apply _ W h (ix2 k q) (ix2 (Fin.castAdd 128 k) q) fun a => ?_
    match a with
    | ⟨0, _⟩ => show k.val = 0 + k.val; omega
    | ⟨1, _⟩ => show q.val = 0 + q.val; omega

/-- Rows `128 … 255` of `Wp₁` taken by a slice are its lower half. -/
theorem slice_lower (W : Mat 256 128) (h : S256x128.Slices ![128, 0] S128x128) :
    extractStridedSlice S128x128 ![128, 0] W h = lower W :=
  funext fun j => by
    obtain ⟨k, q, rfl⟩ : ∃ (k : Fin 128) (q : Fin 128), j = ix2 k q := ⟨j 0, j 1, eq_ix2 j⟩
    refine extractStridedSlice_apply _ W h (ix2 k q) (ix2 (Fin.natAdd 128 k) q) fun a => ?_
    match a with
    | ⟨0, _⟩ => show 128 + k.val = 128 + k.val; rfl
    | ⟨1, _⟩ => show q.val = 0 + q.val; omega

/-! ## The result -/

variable (m : (ℓ : Loc nD τ sig) → Buf (Elt Ideal) ℓ) (ρ : Dev nD → PrngReg)

/-- The network of the first program's argument arrays as launched. -/
abbrev result (c : Dev nD) : Buf (Elt Ideal) ((c.tc : Thread nD τ).loc main_v53) :=
  network (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The last boundary's contents at the result array are the network of the arguments. -/
theorem W4_eq_network (c : Dev nD) : W4 m ρ c (Proc.devRef .tc main_v53) = result m c := by
  rw [W4_result, Projector.final_project]
  unfold Projector.projectArr Projector.h1Arr Projector.h2Arr Projector.waArr Projector.wbArr Projector.bp1Arr
    Projector.wp2Arr Projector.bp2Arr Projector.wp3Arr Projector.bp3Arr
  show project (W3 m ρ c (Proc.devRef .tc main_v5_0)) (W3 m ρ c (Proc.devRef .tc main_v50))
      (W3 m ρ c (Proc.devRef .tc main_v51)) (W3 m ρ c (Proc.devRef .tc main_v52)) (rowOf (W3 m ρ c (Proc.devRef .tc main_v2)))
      (W3 m ρ c (Proc.devRef .tc main_arg11)) (rowOf (W3 m ρ c (Proc.devRef .tc main_v3)))
      (W3 m ρ c (Proc.devRef .tc main_arg13)) (rowOf (W3 m ρ c (Proc.devRef .tc main_v4))) = _
  rw [W3_main_v5_0, W3_aggregate, W3_upper, W3_lower, W3_main_v2, W3_main_v3, W3_main_v4, W3_main_arg11, W3_main_arg13,
    W2_hidden, W2_feat, W2_main_arg2, W2_main_arg8, W2_main_arg9, W2_main_arg11, W2_main_arg13, W2_main_v2, W2_main_v3, W2_main_v4,
    Branches.final_hidden, Branches.final_feat]
  unfold Branches.hiddenArr Branches.featArr Branches.xArr Branches.xoArr Branches.w1Arr Branches.b1Arr Branches.w2Arr
    Branches.b2Arr Branches.wgArr
  show project (Net.hidden (W1 m ρ c (Proc.devRef .tc main_arg0)) (W1 m ρ c (Proc.devRef .tc main_arg3))
        (rowOf (W1 m ρ c (Proc.devRef .tc main_v0))) (W1 m ρ c (Proc.devRef .tc main_arg5)) (rowOf (W1 m ρ c (Proc.devRef .tc main_v1))))
      (Agg.aggregate (feat (W1 m ρ c (Proc.devRef .tc main_arg1)) (W1 m ρ c (Proc.devRef .tc main_arg7)))
        (W1 m ρ c (Proc.devRef .tc main_arg2)) (W1 m ρ c (Proc.devRef .tc main_arg8)))
      (extractStridedSlice S128x128 ![0, 0] (W1 m ρ c (Proc.devRef .tc main_arg9)) slices_S256x128_S128x128_0_0)
      (extractStridedSlice S128x128 ![128, 0] (W1 m ρ c (Proc.devRef .tc main_arg9)) slices_S256x128_S128x128_128_0)
      (rowOf (W1 m ρ c (Proc.devRef .tc main_v2))) (W1 m ρ c (Proc.devRef .tc main_arg11))
      (rowOf (W1 m ρ c (Proc.devRef .tc main_v3))) (W1 m ρ c (Proc.devRef .tc main_arg13))
      (rowOf (W1 m ρ c (Proc.devRef .tc main_v4))) = _
  rw [W1_arg0, W1_arg1, W1_arg2, W1_arg3, W1_arg5, W1_arg7, W1_arg8, W1_arg9, W1_arg11, W1_arg13,
    W1_main_v0, W1_main_v1, W1_main_v2, W1_main_v3, W1_main_v4]
  rw [slice_upper, slice_lower, rowOf_reshape, rowOf_reshape, rowOf_reshape, rowOf_reshape, rowOf_reshape]
  exact project_eq_joined _ _ _ _ _ _ _ _

/-- The run, read: every weakly fair execution of the first program terminates with the result array at the network of
    its arguments, the arguments as launched. -/
theorem run : θ_run defs (onTc (τ := τ) (main (F := Ideal))) ⟨m, fun _ => 0, ρ⟩ (fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (W4_eq_network m ρ c), (h c).2⟩) (run_named m ρ)

end Cert.KernelIdeal.Whole

end
-- ==== Proof.RefValue.lean ====
/-
  The reference's result array as the network of its fifteen arguments.

  The reference is host operations only, and its run leaves the result at their composed term of the arguments. That
  term is read from the outside in: each `dot_general` plus a bias vector laid over the rows by two
  `broadcast_in_dim`s is a dense layer with bias; followed by the maximum against a splat of zero it is the clamped
  layer; the `concatenate` along the columns sets the two branches side by side; the product `x_ones · Wg` is the
  features; and what remains between the features and the second branch is, operation for operation, the aggregation
  that the first program's host stretch also runs — named, not opened.
-/
import proofs.«129887_j63290638074042_1_alg».proof.Proof.Gen.ReferenceIdeal.Run
import proofs.«129887_j63290638074042_1_alg».proof.Proof.Network
import proofs.«129887_j63290638074042_1_alg».proof.Proof.LibPlainDot

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Cert.DenseLayer Cert.BiasLayer Cert.Net

/-! ## The dimension numbers are those of plain products -/

theorem plain512 : PlainDot dot_S50000x512_S512x128_S50000x128_1_0_0_1_n_n := plainDot_of_axes _ rfl rfl rfl rfl rfl rfl
theorem plain128 : PlainDot dot_S50000x128_S128x128_S50000x128_1_0_0_1_n_n := plainDot_of_axes _ rfl rfl rfl rfl rfl rfl
theorem plain256 : PlainDot dot_S50000x256_S256x128_S50000x128_1_0_0_1_n_n := plainDot_of_axes _ rfl rfl rfl rfl rfl rfl

/-! ## The shared aggregation, in this program's spelling -/

section Shared

variable {F : FTy → Type} [FloatOps F]

/-- This program's chain of operations between the features and the second branch is the named aggregation: the two
    programs' shape records have the same lists of axes. -/
theorem aggregate_eq (xt : (⟨S50000x128, .f32⟩ : BufTy).Contents (Elt F)) (ei : (⟨S2x800000, .i32⟩ : BufTy).Contents (Elt F))
    (bg : (⟨S128, .f32⟩ : BufTy).Contents (Elt F)) :
    (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 xt (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x3F800000#32)))) (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x3F800000#32)))) (broadcastInDim S850000x1 ![0] bcast_S850000_S850000x1_0 (select (cmpi .slt (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0))))))))) (broadcastInDim S50000x128 ![0, 1] bcast_S1x128_S50000x128_0_1 (broadcastInDim S1x128 ![1] bcast_S128_S1x128_1 bg)) : (⟨S50000x128, .f32⟩ : BufTy).Contents (Elt F))
      = Cert.KernelIdeal.Agg.aggregate xt ei bg := rfl

end Shared

/-! ## The host spellings as whole arrays -/

section Layers

variable {K : ℕ} {d : DotDims ⟨2, ![50000, K]⟩ ⟨2, ![K, 128]⟩ ⟨2, ![50000, 128]⟩}

/-- A `dot_general` plus the bias vector laid over the rows is the dense layer. -/
theorem host_affine_eq (hd : PlainDot d) (x : FVec Ideal ⟨2, ![50000, K]⟩ .f32) (w : FVec Ideal ⟨2, ![K, 128]⟩ .f32)
    (b : FVec Ideal S128 .f32) (h1 : S128.BroadcastsInDim S1x128 ![1]) (h2 : S1x128.BroadcastsInDim S50000x128 ![0, 1]) :
    addf (Host.dotGeneral d none x w) (broadcastInDim S50000x128 ![0, 1] h2 (broadcastInDim S1x128 ![1] h1 b)) = affine x w b :=
  funext fun i => by
    obtain ⟨r, q, rfl⟩ : ∃ (r : Fin 50000) (q : Fin 128), i = ix2 r q := ⟨i 0, i 1, eq_ix2 i⟩
    exact host_affine_apply x w b hd none h1 h2 r q

/-- Followed by the maximum against a splat of the zero word it is the clamped dense layer. -/
theorem host_reluAffine_eq (hd : PlainDot d) (x : FVec Ideal ⟨2, ![50000, K]⟩ .f32) (w : FVec Ideal ⟨2, ![K, 128]⟩ .f32)
    (b : FVec Ideal S128 .f32) (h1 : S128.BroadcastsInDim S1x128 ![1]) (h2 : S1x128.BroadcastsInDim S50000x128 ![0, 1])
    (h0 : S_.BroadcastsInDim S50000x128 ![]) :
    maximumf (addf (Host.dotGeneral d none x w) (broadcastInDim S50000x128 ![0, 1] h2 (broadcastInDim S1x128 ![1] h1 b)))
        (broadcastInDim S50000x128 ![] h0 (constant (F := Ideal) S_ .f32 0x00000000#32))
      = reluAffine x w b :=
  funext fun i => by
    obtain ⟨r, q, rfl⟩ : ∃ (r : Fin 50000) (q : Fin 128), i = ix2 r q := ⟨i 0, i 1, eq_ix2 i⟩
    exact host_reluAffine_apply x w b hd none h1 h2 h0 r q

end Layers

/-- The product `x_ones · Wg` is the features. -/
theorem host_feat_eq (x : FVec Ideal S50000x512 .f32) (w : FVec Ideal S512x128 .f32) :
    Host.dotGeneral dot_S50000x512_S512x128_S50000x128_1_0_0_1_n_n none x w = feat (a := 50000) x w :=
  funext fun i => dotGeneral_apply plain512 none .single x w i

/-- Two `[50000, 128]` arrays concatenated along the columns are the two set side by side. -/
theorem concat_joined (A B : FVec Ideal S50000x128 .f32) (h : Shape.Concatenates [S50000x128, S50000x128] S50000x256 1) :
    concatenate S50000x256 1 [⟨S50000x128, A⟩, ⟨S50000x128, B⟩] h = joined (a := 50000) A B :=
  funext fun i => by
    obtain ⟨r, kk, rfl⟩ : ∃ (r : Fin 50000) (kk : Fin 256), i = ix2 r kk := ⟨i 0, i 1, eq_ix2 i⟩
    refine Fin.addCases (m := 128) (n := 128) (fun k => ?_) (fun k => ?_) kk
    · rw [joined_left]
      refine concatenate_pair_apply_left (1 : Fin 2) A B h (ix2 r (Fin.castAdd 128 k)) rfl (ix2 r k) fun b => ?_
      match b with
      | ⟨0, _⟩ => rfl
      | ⟨1, _⟩ => rfl
    · rw [joined_right]
      refine concatenate_pair_apply_right (1 : Fin 2) A B h (ix2 r (Fin.natAdd 128 k)) rfl rfl (ix2 r k) (fun b hb => ?_) ?_
      · match b with
        | ⟨0, _⟩ => rfl
        | ⟨1, _⟩ => exact absurd rfl hb
      · show k.val + 128 = 128 + k.val
        omega

/-! ## The result -/

/-- The run's result term is the network of the arguments as launched. -/
theorem result_eq (m : (ℓ : Loc nD τ sig) → Buf (Elt Ideal) ℓ) (c : Dev nD) :
    res_main_v68 (F := Ideal) m c = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold res_main_v68 network
  rw [host_affine_eq plain128, host_affine_eq plain128, host_affine_eq plain256, concat_joined,
    host_reluAffine_eq plain128, host_reluAffine_eq plain512, host_feat_eq, aggregate_eq]
  rfl

end Cert.ReferenceIdeal.RefValue

end
-- ==== Proof.lean ====
/-
  The kernel and its reference compute one network, entry by entry, on the extended reals.

  The network has two branches over 50000 nodes and a projector. The perceptron branch is
  `h₁ = relu (relu (x·W₁ + b₁)·W₂ + b₂)`. The graph branch multiplies `x_ones` by `Wg` and aggregates the
  product's rows over the graph's edges with degree-normalised coefficients, plus a bias: `h₂`. The projector is three
  dense layers with bias on the two branches set side by side, `[h₁ | h₂]`.

  The reference computes exactly that with host operations. The kernel computes `h₁` and `x_ones·Wg` in a first
  grid of 50 row blocks, runs the same aggregation on the host, and in a second grid of 50 row blocks computes the
  projector with its first layer split: `h₁·Wp₁[:128] + h₂·Wp₁[128:] + bp₁` in place of `[h₁ | h₂]·Wp₁ + bp₁`. The
  kernel's products take operands narrowed to a shorter float format, which on the extended reals changes nothing.

  The two sides meet by three facts. Every layer's entry `(r, q)` depends on its row-indexed input only through
  row `r`, so a row block of a layer is the layer of the row block, and the 50 blocks tile the arrays
  (Region0Value, Region1Value over the payloads of Payloads). The aggregation is the same chain of operations in both
  programs and is carried as one function of what goes into it (Aggregate). And a sum over 256 columns is the sum over
  the first 128 plus the sum over the last 128 (Spec, `prodRow_joined`) — a regrouping of a finite sum, valid for
  every extended real, so the finiteness of the inputs is never used.

  KernelValue reads the kernel's result array back through its two regions and two host stretches to the network
  of its arguments; RefValue reads the reference's composed term as the same network of its arguments; below, the two
  runs are set side by side from memories that agree on the arguments.
-/
import proofs.«129887_j63290638074042_1_alg».proof.Defs
import proofs.«129887_j63290638074042_1_alg».proof.Proof.Gen.Kernel
import proofs.«129887_j63290638074042_1_alg».proof.Proof.Gen.KernelIdeal
import proofs.«129887_j63290638074042_1_alg».proof.Proof.Gen.ReferenceIdeal
import proofs.«129887_j63290638074042_1_alg».proof.Proof.Gen.Pre_finite_inputs
import proofs.«129887_j63290638074042_1_alg».proof.Proof.KernelFrame
import proofs.«129887_j63290638074042_1_alg».proof.Proof.KernelIdealFrame
import proofs.«129887_j63290638074042_1_alg».proof.Proof.KernelValue
import proofs.«129887_j63290638074042_1_alg».proof.Proof.RefValue
import Idealize.ShloMosaic.Adequacy
import Idealize.ShloMosaic.Init

noncomputable section

namespace Cert.Proof

open Idealize.ShloMosaic Idealize.SL.Sem

/-- The kernel as printed runs, faults nowhere, and leaves its arguments as launched. -/
theorem frame_k : Cert.frame_Kernel (hKernel := Cert.Kernel.Gen.facts) (hPre_finite_inputs := Cert.Pre_finite_inputs.Gen.facts) :=
  fun m ρ _ => Cert.Kernel.GenP.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the fifteen arguments both idealized programs end with their result arrays at the one
    network of those arguments: the kernel's by `KernelIdeal.Whole.run`, the reference's by its generated run and
    `RefValue.result_eq`, the arguments' agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.RefValue.result_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
